-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x64x16 : Shape := ⟨3, ![4096, 64, 16]⟩
abbrev S4096x64x1 : Shape := ⟨3, ![4096, 64, 1]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x64x1 : S_.BroadcastsInDim S4096x64x1 (![] : Fin 0 → Fin S4096x64x1.rank)
  reducesTo_S4096x64x1_S_d0_1_2 : S4096x64x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x64x16 32) (main_arg2 : FVec F S4096x64x1 .f32) (main_arg3 : FVec F S4096x64x1 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x64x1 .f32 := Host.absf main_arg2
  let main_cst_0 : FVec F S_ .f32 := constant S_ .f32 0x7F800000#32
  let main_v5 : FVec F S4096x64x1 .f32 := broadcastInDim S4096x64x1 ![] bcast_S_S4096x64x1 main_cst_0
  let main_v6 : IVec S4096x64x1 1 := cmpf .olt main_v4 main_v5
  let main_c_1 : IVec S_ 1 := constantI S_ 1 1#1
  let main_v7 : IVec S_ 1 := (fun x v => Host.reduce IntOp.andi x v reducesTo_S4096x64x1_S_d0_1_2 h_S_) main_v6 main_c_1
  let main_v8 : IVec S_ 1 := andi main_v3 main_v7
  let main_v9 : FVec F S4096x64x1 .f32 := Host.absf main_arg3
  let main_cst_2 : FVec F S_ .f32 := constant S_ .f32 0x7F800000#32
  let main_v10 : FVec F S4096x64x1 .f32 := broadcastInDim S4096x64x1 ![] bcast_S_S4096x64x1 main_cst_2
  let main_v11 : IVec S4096x64x1 1 := cmpf .olt main_v9 main_v10
  let main_c_3 : IVec S_ 1 := constantI S_ 1 1#1
  let main_v12 : IVec S_ 1 := (fun x v => Host.reduce IntOp.andi x v reducesTo_S4096x64x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x64x16 : Shape := ⟨3, ![4096, 64, 16]⟩
abbrev S4096x64x1 : Shape := ⟨3, ![4096, 64, 1]⟩
abbrev S4096 : Shape := ⟨1, ![4096]⟩
abbrev S4096x4096 : Shape := ⟨2, ![4096, 4096]⟩
abbrev S1x4096 : Shape := ⟨2, ![1, 4096]⟩
abbrev S512x4096 : Shape := ⟨2, ![512, 4096]⟩
abbrev S128x64x16 : Shape := ⟨3, ![128, 64, 16]⟩
abbrev S128x64x1 : Shape := ⟨3, ![128, 64, 1]⟩
abbrev S1x128 : Shape := ⟨2, ![1, 128]⟩
abbrev S512x128 : Shape := ⟨2, ![512, 128]⟩
abbrev S128x64x16x1 : Shape := ⟨4, ![128, 64, 16, 1]⟩
abbrev S128x64x16x4 : Shape := ⟨4, ![128, 64, 16, 4]⟩
abbrev S128x64x1x1 : Shape := ⟨4, ![128, 64, 1, 1]⟩
abbrev S128x4096 : Shape := ⟨2, ![128, 4096]⟩

abbrev nBuf : Space → Nat
  | .hbm => 9
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S4096x64x16, .i32⟩
  | .hbm, ⟨2, _⟩ => ⟨S4096x64x1, .f32⟩
  | .hbm, ⟨3, _⟩ => ⟨S4096x64x1, .f32⟩
  | .hbm, ⟨4, _⟩ => ⟨S4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S2x2048x4096, .f32⟩
  | .local _ .vmem, ⟨0, _⟩ => ⟨S512x4096, .f32⟩
  | .local _ .vmem, ⟨1, _⟩ => ⟨S512x4096, .f32⟩
  | .local _ .vmem, ⟨2, _⟩ => ⟨S128x64x16, .i32⟩
  | .local _ .vmem, ⟨3, _⟩ => ⟨S128x64x16, .i32⟩
  | .local _ .vmem, ⟨4, _⟩ => ⟨S128x64x1, .f32⟩
  | .local _ .vmem, ⟨5, _⟩ => ⟨S128x64x1, .f32⟩
  | .local _ .vmem, ⟨6, _⟩ => ⟨S128x64x1, .f32⟩
  | .local _ .vmem, ⟨7, _⟩ => ⟨S128x64x1, .f32⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x4096_S4096x4096 : S2x2048x4096.ShapeCasts S4096x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x64x16_S128x64x16_0_0_0 : ∀ a, (![0, 0, 0] : Fin 3 → Nat) a + S128x64x16.size a ≤ S128x64x16.size a
  h_S128x64x16 : 0 < S128x64x16.numel
  shapeCasts_S128x64x16_S128x64x16x1 : S128x64x16.ShapeCasts S128x64x16x1
  concatenates_S128x64x16x1_S128x64x16x1_S128x64x16x1_S128x64x16x1_S128x64x16x4_d3 : Shape.Concatenates [S128x64x16x1, S128x64x16x1, S128x64x16x1, S128x64x16x1] S128x64x16x4 3
  inb_S128x64x1_S128x64x1_0_0_0 : ∀ a, (![0, 0, 0] : Fin 3 → Nat) a + S128x64x1.size a ≤ S128x64x1.size a
  h_S128x64x1 : 0 < S128x64x1.numel
  shapeCasts_S128x64x1_S128x64x1x1 : S128x64x1.ShapeCasts S128x64x1x1
  broadcasts_S128x64x1x1_S128x64x16x4 : S128x64x1x1.Broadcasts S128x64x16x4
  shapeCasts_S128x64x16x4_S128x4096 : S128x64x16x4.ShapeCasts S128x4096
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S4096x4096_S2x2048x4096 : S4096x4096.ShapeCasts S2x2048x4096
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x16.size a ≤ S4096x64x16.size a
  hwx0_1 : ∀ i : grid0.Coords, EltTy.bits .i32 = 32 ∨ (Rect.block (s := S4096x64x16) S128x64x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x1.size a ≤ S4096x64x1.size a
  hwx0_2 : ∀ i : grid0.Coords, EltTy.bits .f32 = 32 ∨ (Rect.block (s := S4096x64x1) S128x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x1.size a ≤ S4096x64x1.size a
  hwx0_3 : ∀ i : grid0.Coords, EltTy.bits .f32 = 32 ∨ (Rect.block (s := S4096x64x1) S128x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x4096.size a
  hwx0_5 : ∀ i : grid0.Coords, EltTy.bits .f32 = 32 ∨ (Rect.block (s := S4096x4096) S512x128.size (cc0_transform_5 i) (hinb0_5 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x64x16 : Shape := ⟨3, ![4096, 64, 16]⟩
abbrev S4096x64x1 : Shape := ⟨3, ![4096, 64, 1]⟩
abbrev S4096 : Shape := ⟨1, ![4096]⟩
abbrev S_ : Shape := ⟨0, ![]⟩
abbrev S4096x64x16x1 : Shape := ⟨4, ![4096, 64, 16, 1]⟩
abbrev S4096x64x16x4 : Shape := ⟨4, ![4096, 64, 16, 4]⟩
abbrev S4096x64x1x1 : Shape := ⟨4, ![4096, 64, 1, 1]⟩
abbrev S4096x4096 : Shape := ⟨2, ![4096, 4096]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x64x16, .i32⟩
  | .hbm, ⟨2, _⟩ => ⟨S4096x64x1, .f32⟩
  | .hbm, ⟨3, _⟩ => ⟨S4096x64x1, .f32⟩
  | .hbm, ⟨4, _⟩ => ⟨S4096, .f32⟩
  | .hbm, ⟨5, _⟩ => ⟨S_, .i32⟩
  | .hbm, ⟨6, _⟩ => ⟨S4096x64x16, .i32⟩
  | .hbm, ⟨7, _⟩ => ⟨S4096x64x16, .i32⟩
  | .hbm, ⟨8, _⟩ => ⟨S_, .i32⟩
  | .hbm, ⟨9, _⟩ => ⟨S4096x64x16, .i32⟩
  | .hbm, ⟨10, _⟩ => ⟨S4096x64x16, .i32⟩
  | .hbm, ⟨11, _⟩ => ⟨S_, .i32⟩
  | .hbm, ⟨12, _⟩ => ⟨S4096x64x16, .i32⟩
  | .hbm, ⟨13, _⟩ => ⟨S4096x64x16, .i32⟩
  | .hbm, ⟨14, _⟩ => ⟨S_, .i32⟩
  | .hbm, ⟨15, _⟩ => ⟨S4096x64x16, .i32⟩
  | .hbm, ⟨16, _⟩ => ⟨S4096x64x16, .i32⟩
  | .hbm, ⟨17, _⟩ => ⟨S_, .i32⟩
  | .hbm, ⟨18, _⟩ => ⟨S4096x64x16, .i32⟩
  | .hbm, ⟨19, _⟩ => ⟨S4096x64x16, .i32⟩
  | .hbm, ⟨20, _⟩ => ⟨S_, .i32⟩
  | .hbm, ⟨21, _⟩ => ⟨S4096x64x16, .i32⟩
  | .hbm, ⟨22, _⟩ => ⟨S4096x64x16, .i32⟩
  | .hbm, ⟨23, _⟩ => ⟨S_, .i32⟩
  | .hbm, ⟨24, _⟩ => ⟨S4096x64x16, .i32⟩
  | .hbm, ⟨25, _⟩ => ⟨S4096x64x16, .i32⟩
  | .hbm, ⟨26, _⟩ => ⟨S_, .i32⟩
  | .hbm, ⟨27, _⟩ => ⟨S4096x64x16, .i32⟩
  | .hbm, ⟨28, _⟩ => ⟨S4096x64x16, .i32⟩
  | .hbm, ⟨29, _⟩ => ⟨S4096x64x16x1, .i32⟩
  | .hbm, ⟨30, _⟩ => ⟨S4096x64x16x1, .i32⟩
  | .hbm, ⟨31, _⟩ => ⟨S4096x64x16x1, .i32⟩
  | .hbm, ⟨32, _⟩ => ⟨S4096x64x16x1, .i32⟩
  | .hbm, ⟨33, _⟩ => ⟨S4096x64x16x4, .i32⟩
  | .hbm, ⟨34, _⟩ => ⟨S4096x64x16x4, .f32⟩
  | .hbm, ⟨35, _⟩ => ⟨S4096x64x1x1, .f32⟩
  | .hbm, ⟨36, _⟩ => ⟨S4096x64x16x4, .f32⟩
  | .hbm, ⟨37, _⟩ => ⟨S4096x64x16x4, .f32⟩
  | .hbm, ⟨38, _⟩ => ⟨S4096x64x1x1, .f32⟩
  | .hbm, ⟨39, _⟩ => ⟨S4096x64x16x4, .f32⟩
  | .hbm, ⟨40, _⟩ => ⟨S4096x64x16x4, .f32⟩
  | .hbm, ⟨41, _⟩ => ⟨S4096x4096, .f32⟩
  | .hbm, ⟨42, _⟩ => ⟨S2x2048x4096, .f32⟩
  | .hbm, ⟨43, _⟩ => ⟨S1x1x4096, .f32⟩
  | .hbm, ⟨44, _⟩ => ⟨S2x2048x4096, .f32⟩
  | .hbm, ⟨45, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S4096x64x16 : S_.BroadcastsInDim S4096x64x16 (![] : Fin 0 → Fin S4096x64x16.rank)
  bcast_S4096x64x16_S4096x64x16x1_0_1_2 : S4096x64x16.BroadcastsInDim S4096x64x16x1 (![0, 1, 2] : Fin 3 → Fin S4096x64x16x1.rank)
  concatenates_S4096x64x16x1_S4096x64x16x1_S4096x64x16x1_S4096x64x16x1_S4096x64x16x4_d3 : Shape.Concatenates [S4096x64x16x1, S4096x64x16x1, S4096x64x16x1, S4096x64x16x1] S4096x64x16x4 3
  bcast_S4096x64x1_S4096x64x1x1_0_1_2 : S4096x64x1.BroadcastsInDim S4096x64x1x1 (![0, 1, 2] : Fin 3 → Fin S4096x64x1x1.rank)
  bcast_S4096x64x1x1_S4096x64x16x4_0_1_2_3 : S4096x64x1x1.BroadcastsInDim S4096x64x16x4 (![0, 1, 2, 3] : Fin 4 → Fin S4096x64x16x4.rank)
  shapeCasts_S4096x64x16x4_S4096x4096 : S4096x64x16x4.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Dequant.lean ====
/-
  The group-quantized linear layer, as mathematics.

  A packed word holds four 4-bit fields; field `p` of a word `w` is `(w >> 4p) & 15` (field 0 needs no shift).
  The dense weight of output feature `o` at input feature `k = 64 g + 4 s + p` is the field, converted to a
  float, times the group's scale plus the group's offset: `W[o, k] = float(field p of word[o, g, s]) * scale[o, g] + offset[o, g]`.
  The layer is `y[b, t, o] = (sum over k of x[b, t, k] * W[o, k]) + bias[o]`.

  Both programs compute exactly this expression, entry by entry, over the extended reals; they differ only in how
  the sum is tiled and in the layout operations that carry the entries. So the bridge below is index bookkeeping:
  no distributivity, no cancellation, and therefore no finiteness of the inputs is used.
-/
import Idealize.ShloMosaic.PureOps.Ideal
import Idealize.ShloMosaic.PureOps.Ideal.Laws
import Idealize.ShloMosaic.Lib.ValueIdx
import Idealize.ShloMosaic.Lib.Pipeline.Value

noncomputable section

namespace Cert.GroupQuant

open Idealize.ShloMosaic Idealize.ShloMosaic.ValueIdx

/-- Field `p` (of four, low to high) of a packed 32-bit word: shift right by `4 p`, keep the low four bits. -/
def nibble (w : BitVec 32) (p : Fin 4) : BitVec 32 :=
  match p with
  | ⟨0, _⟩ => IntOp.andi w 15#32
  | ⟨1, _⟩ => IntOp.andi (IntOp.shrsi .vector w 4#32) 15#32
  | ⟨2, _⟩ => IntOp.andi (IntOp.shrsi .vector w 8#32) 15#32
  | ⟨3, _⟩ => IntOp.andi (IntOp.shrsi .vector w 12#32) 15#32

/-- A right shift by zero bits changes nothing, on any arithmetic unit. -/
theorem shrsi_zero (u : ArithUnit) (w : BitVec 32) : IntOp.shrsi u w 0#32 = w := by
  simp [IntOp.shrsi]

/-- The dequantized weight at output feature `o`, group `g`, word `s` of the group, field `p` of the word. -/
def weight4 {n : Nat} (wp : (⟨3, ![n, 64, 16]⟩ : Shape).Idx → BitVec 32)
    (sc wb : (⟨3, ![n, 64, 1]⟩ : Shape).Idx → Ideal .f32) (o : Fin n) (g : Fin 64) (s : Fin 16) (p : Fin 4) : Ideal .f32 :=
  FloatOps.sitofp (F := Ideal) .f32 (nibble (wp (ix3 o g s)) p) * sc (ix3 o g (0 : Fin 1)) + wb (ix3 o g (0 : Fin 1))

/-- The dense weight `W[o, k]`: input feature `k` is field `k mod 4` of word `(k / 4) mod 16` of group `k / 64`. -/
def weightAt {n : Nat} (wp : (⟨3, ![n, 64, 16]⟩ : Shape).Idx → BitVec 32)
    (sc wb : (⟨3, ![n, 64, 1]⟩ : Shape).Idx → Ideal .f32) (o : Fin n) (k : Fin 4096) : Ideal .f32 :=
  weight4 wp sc wb o ⟨k.val / 64, by have := k.isLt; omega⟩ ⟨k.val / 4 % 16, by omega⟩ ⟨k.val % 4, by omega⟩

/-- The dense weight of a row depends only on that row's words, scales and offsets: two packings that agree on a
    row (possibly at different row numbers, as a block of rows and the whole array do) give the same weights. -/
theorem weightAt_congr {n n' : Nat} (wp : (⟨3, ![n, 64, 16]⟩ : Shape).Idx → BitVec 32)
    (sc wb : (⟨3, ![n, 64, 1]⟩ : Shape).Idx → Ideal .f32) (wp' : (⟨3, ![n', 64, 16]⟩ : Shape).Idx → BitVec 32)
    (sc' wb' : (⟨3, ![n', 64, 1]⟩ : Shape).Idx → Ideal .f32) (o : Fin n) (o' : Fin n')
    (hwp : ∀ g s, wp (ix3 o g s) = wp' (ix3 o' g s)) (hsc : ∀ g, sc (ix3 o g (0 : Fin 1)) = sc' (ix3 o' g (0 : Fin 1)))
    (hwb : ∀ g, wb (ix3 o g (0 : Fin 1)) = wb' (ix3 o' g (0 : Fin 1))) (k : Fin 4096) :
    weightAt wp sc wb o k = weightAt wp' sc' wb' o' k := by
  unfold weightAt weight4
  rw [hwp, hsc, hwb]

/-- The layer's result: `y[b, t, o] = (sum over k of x[b, t, k] * W[o, k]) + bias[o]`. -/
def result (x : (⟨3, ![2, 2048, 4096]⟩ : Shape).Idx → Ideal .f32) (wp : (⟨3, ![4096, 64, 16]⟩ : Shape).Idx → BitVec 32)
    (sc wb : (⟨3, ![4096, 64, 1]⟩ : Shape).Idx → Ideal .f32) (bias : (⟨1, ![4096]⟩ : Shape).Idx → Ideal .f32) :
    (⟨3, ![2, 2048, 4096]⟩ : Shape).Idx → Ideal .f32 :=
  fun i => (∑ k : Fin 4096, x (ix3 (i 0) (i 1) k) * weightAt wp sc wb (i 2) k) + bias (ix1 (i 2))

/-- Four arrays with a trailing axis of length one, joined along that axis, read at `(o, g, s, p)`: array `p` at
    `(o, g, s, 0)`. -/
theorem stack4_apply {n : Nat} {α : Type} (x0 x1 x2 x3 : (⟨4, ![n, 64, 16, 1]⟩ : Shape).Idx → α)
    (h : Shape.Concatenates (([⟨⟨4, ![n, 64, 16, 1]⟩, x0⟩, ⟨⟨4, ![n, 64, 16, 1]⟩, x1⟩, ⟨⟨4, ![n, 64, 16, 1]⟩, x2⟩,
      ⟨⟨4, ![n, 64, 16, 1]⟩, x3⟩] : List ((s : Shape) × (s.Idx → α))).map (·.1)) ⟨4, ![n, 64, 16, 4]⟩ 3)
    (o : Fin n) (g : Fin 64) (s : Fin 16) (p : Fin 4) :
    concatenate ⟨4, ![n, 64, 16, 4]⟩ 3 [⟨⟨4, ![n, 64, 16, 1]⟩, x0⟩, ⟨⟨4, ![n, 64, 16, 1]⟩, x1⟩, ⟨⟨4, ![n, 64, 16, 1]⟩, x2⟩,
      ⟨⟨4, ![n, 64, 16, 1]⟩, x3⟩] h (ix4 o g s p)
      = (match p with | ⟨0, _⟩ => x0 | ⟨1, _⟩ => x1 | ⟨2, _⟩ => x2 | ⟨3, _⟩ => x3) (ix4 o g s (0 : Fin 1)) := by
  have hi : ∀ b : Fin 4, b.cast (rfl : (4 : Nat) = 4) ≠ (3 : Fin 4) →
      ((ix4 o g s (0 : Fin 1) : (⟨4, ![n, 64, 16, 1]⟩ : Shape).Idx) b).val
        = ((ix4 o g s p : (⟨4, ![n, 64, 16, 4]⟩ : Shape).Idx) (b.cast rfl)).val := by
    intro b hb
    match b with
    | ⟨0, _⟩ => rfl
    | ⟨1, _⟩ => rfl
    | ⟨2, _⟩ => rfl
    | ⟨3, _⟩ => exact absurd rfl hb
  match p with
  | ⟨0, _⟩ => exact concatenate_apply_piece 3 _ h _ 0 (by simp) _ x0 rfl rfl 0 rfl _ hi rfl
  | ⟨1, _⟩ => exact concatenate_apply_piece 3 _ h _ 1 (by simp) _ x1 rfl rfl 1 rfl _ hi rfl
  | ⟨2, _⟩ => exact concatenate_apply_piece 3 _ h _ 2 (by simp) _ x2 rfl rfl 2 rfl _ hi rfl
  | ⟨3, _⟩ => exact concatenate_apply_piece 3 _ h _ 3 (by simp) _ x3 rfl rfl 3 rfl _ hi rfl

end Cert.GroupQuant

end
-- ==== Proof.RefValue.lean ====
/-
  The reference computes `result`.

  The reference unpacks the four fields of every word (shifting by 0, 4, 8 and 12 bits and masking with 15), stacks
  them along a new last axis, converts to float, scales and offsets by the group's values broadcast over the group,
  flattens `[4096, 64, 16, 4]` to `[4096, 4096]` (row-major: `k = 64 g + 4 s + p`), contracts `x`'s last axis
  against the weight's last axis, and adds the bias broadcast over batch and sequence. Read entry by entry this is
  `result`: each layout operation moves an index, each arithmetic operation acts on one entry, and the contraction
  is the sum over `k`.
-/
import proofs.«421316_j11733850653105_1_alg».proof.Proof.Gen.ReferenceIdeal.Read
import proofs.«421316_j11733850653105_1_alg».proof.Proof.Dequant
import Idealize.ShloMosaic.Lib.KernelVsHost

noncomputable section

namespace Cert.ReferenceIdeal.RefValue

open Cert.ReferenceIdeal Cert.ReferenceIdeal.Gen Cert.ReferenceIdeal.Read
open Idealize.ShloMosaic Idealize.ShloMosaic.ValueIdx Cert.GroupQuant

/-- The stacked fields at `(o, g, s, p)`: field `p` of word `(o, g, s)`. The shift by zero bits is the identity, and
    the host's arithmetic shift is the vector unit's. -/
theorem fields_apply (x1 : IVec S4096x64x16 32) (o : Fin 4096) (g : Fin 64) (s : Fin 16) (p : Fin 4) :
    val_main_v20 (F := Ideal) x1 (ix4 o g s p) = nibble (x1 (ix3 o g s)) p := by
  unfold val_main_v20
  refine (stack4_apply (n := 4096) _ _ _ _ _ o g s p).trans ?_
  have e16 : idx_main_v16 (ix4 o g s (0 : Fin 1)) = ix3 o g s := funext fun a => by
    match a with
    | ⟨0, _⟩ => rfl
    | ⟨1, _⟩ => rfl
    | ⟨2, _⟩ => rfl
  match p with
  | ⟨0, _⟩ =>
    show val_main_v16 (F := Ideal) x1 (ix4 o g s (0 : Fin 1)) = _
    rw [val_main_v16_apply, val_main_v3_apply, val_main_v1_apply, val_main_v0_apply, val_main_c_apply,
      val_main_v2_apply, val_main_c_0_apply, e16, shrsi_zero]
    rfl
  | ⟨1, _⟩ =>
    show val_main_v17 (F := Ideal) x1 (ix4 o g s (0 : Fin 1)) = _
    rw [val_main_v17_apply, val_main_v7_apply, val_main_v5_apply, val_main_v4_apply, val_main_c_1_apply,
      val_main_v6_apply, val_main_c_2_apply, show idx_main_v17 (ix4 o g s (0 : Fin 1)) = ix3 o g s from e16]
    exact congrArg (IntOp.andi · 15#32) (shrsi_unit _ _ _ _)
  | ⟨2, _⟩ =>
    show val_main_v18 (F := Ideal) x1 (ix4 o g s (0 : Fin 1)) = _
    rw [val_main_v18_apply, val_main_v11_apply, val_main_v9_apply, val_main_v8_apply, val_main_c_3_apply,
      val_main_v10_apply, val_main_c_4_apply, show idx_main_v18 (ix4 o g s (0 : Fin 1)) = ix3 o g s from e16]
    exact congrArg (IntOp.andi · 15#32) (shrsi_unit _ _ _ _)
  | ⟨3, _⟩ =>
    show val_main_v19 (F := Ideal) x1 (ix4 o g s (0 : Fin 1)) = _
    rw [val_main_v19_apply, val_main_v15_apply, val_main_v13_apply, val_main_v12_apply, val_main_c_5_apply,
      val_main_v14_apply, val_main_c_6_apply, show idx_main_v19 (ix4 o g s (0 : Fin 1)) = ix3 o g s from e16]
    exact congrArg (IntOp.andi · 15#32) (shrsi_unit _ _ _ _)

/-- The reference's dense weight at `(o, k)` is `W[o, k]`: the flattening puts `(g, s, p)` at `k = 64 g + 4 s + p`. -/
theorem weight_apply (x1 : IVec S4096x64x16 32) (x2 x3 : FVec Ideal S4096x64x1 .f32) (o k : Fin 4096) :
    val_main_v28 (F := Ideal) x1 x2 x3 (ix2 o k) = weightAt x1 x2 x3 o k := by
  have hk := k.isLt
  have ho := o.isLt
  have e28 : idx_main_v28 (ix2 o k) = ix4 o (⟨k.val / 64, by omega⟩ : Fin 64) (⟨k.val / 4 % 16, by omega⟩ : Fin 16) (⟨k.val % 4, by omega⟩ : Fin 4) :=
    funext fun a => Fin.ext (by
      match a with
      | ⟨0, _⟩ => show (o.val * 4096 + k.val) / 4096 = o.val; omega
      | ⟨1, _⟩ => show (o.val * 4096 + k.val) / 64 % 64 = k.val / 64; omega
      | ⟨2, _⟩ => show (o.val * 4096 + k.val) / 4 % 16 = k.val / 4 % 16; omega
      | ⟨3, _⟩ => show (o.val * 4096 + k.val) % 4 = k.val % 4; omega)
  rw [val_main_v28_apply, e28, val_main_v27_apply, val_main_v24_apply, val_main_v21_apply, fields_apply,
    val_main_v23_apply, val_main_v22_apply, val_main_v26_apply, val_main_v25_apply]
  have e22 : ∀ (g : Fin 64) (s : Fin 16) (p : Fin 4), idx_main_v22 (idx_main_v23 (ix4 o g s p)) = ix3 o g (0 : Fin 1) := fun g s p =>
    funext fun a => by
      match a with
      | ⟨0, _⟩ => rfl
      | ⟨1, _⟩ => rfl
      | ⟨2, _⟩ => rfl
  rw [e22, show idx_main_v25 (idx_main_v26 (ix4 o (⟨k.val / 64, by omega⟩ : Fin 64) (⟨k.val / 4 % 16, by omega⟩ : Fin 16) (⟨k.val % 4, by omega⟩ : Fin 4))) = ix3 o (⟨k.val / 64, by omega⟩ : Fin 64) (0 : Fin 1) from e22 _ _ _]
  rfl

/-- The reference's result is `result` of its five arguments. -/
theorem result_eq (x0 : FVec Ideal S2x2048x4096 .f32) (x1 : IVec S4096x64x16 32) (x2 x3 : FVec Ideal S4096x64x1 .f32)
    (x4 : FVec Ideal S4096 .f32) :
    val_main_v32 (F := Ideal) x0 x1 x2 x3 x4 = result x0 x1 x2 x3 x4 := by
  funext i
  obtain ⟨b, t, o, rfl⟩ : ∃ (b : Fin 2) (t : Fin 2048) (o : Fin 4096), i = ix3 b t o := ⟨i 0, i 1, i 2, eq_ix3 i⟩
  rw [val_main_v32_apply, val_main_v29_apply, val_main_v31_apply, val_main_v30_apply]
  have el : ∀ k : Fin 4096, lidx_main_v29 (ix3 b t o) k = ix3 b t k := fun k => funext fun a => by
    match a with
    | ⟨0, _⟩ => rfl
    | ⟨1, _⟩ => rfl
    | ⟨2, _⟩ => rfl
  have er : ∀ k : Fin 4096, ridx_main_v29 (ix3 b t o) k = ix2 o k := fun k => funext fun a => by
    match a with
    | ⟨0, _⟩ => rfl
    | ⟨1, _⟩ => rfl
  have eb : idx_main_v30 (idx_main_v31 (ix3 b t o)) = ix1 o := funext fun a => by
    match a with
    | ⟨0, _⟩ => rfl
  simp only [el, er, eb, weight_apply]
  rfl

end Cert.ReferenceIdeal.RefValue

end
-- ==== Proof.KernelBody.lean ====
/-
  What the kernel's body computes from the blocks it loads, entry by entry.

  At a grid point the body holds a block of 512 rows of `x` (all 4096 input features), the packed words, scales
  and offsets of 128 output features, and those features' 128 bias values as one row. It unpacks the four fields
  of every word, stacks them on a new last axis, converts, scales and offsets per group, and flattens to a
  `[128, 4096]` weight block: entry `(c, k)` is `W[c, k]` of the block's own packing. The matrix product into a zero
  accumulator contracts the two last axes, so entry `(r, c)` is the sum over `k` of `x[r, k] * W[c, k]`; rounding the
  operands to a narrower float format changes nothing over the extended reals. The bias row is added to every row.
-/
import proofs.«421316_j11733850653105_1_alg».proof.Proof.Gen.KernelIdeal.Skeleton
import proofs.«421316_j11733850653105_1_alg».proof.Proof.Dequant
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx Cert.GroupQuant

/-! ## The weight block -/

/-- The body's stacked fields at `(c, g, s, p)`: field `p` of the block's word `(c, g, s)`. -/
theorem fields_apply (v2 : IVec S128x64x16 32) (c : Fin 128) (g : Fin 64) (s : Fin 16) (p : Fin 4) :
    concatenate S128x64x16x4 3
      [⟨S128x64x16x1, shapeCast S128x64x16x1 (andi v2 (broadcast S128x64x16 15#32)) shapeCasts_S128x64x16_S128x64x16x1⟩,
       ⟨S128x64x16x1, shapeCast S128x64x16x1 (andi (shrsi v2 (broadcast S128x64x16 4#32)) (broadcast S128x64x16 15#32)) shapeCasts_S128x64x16_S128x64x16x1⟩,
       ⟨S128x64x16x1, shapeCast S128x64x16x1 (andi (shrsi v2 (broadcast S128x64x16 8#32)) (broadcast S128x64x16 15#32)) shapeCasts_S128x64x16_S128x64x16x1⟩,
       ⟨S128x64x16x1, shapeCast S128x64x16x1 (andi (shrsi v2 (broadcast S128x64x16 12#32)) (broadcast S128x64x16 15#32)) shapeCasts_S128x64x16_S128x64x16x1⟩]
      concatenates_S128x64x16x1_S128x64x16x1_S128x64x16x1_S128x64x16x1_S128x64x16x4_d3 (ix4 c g s p)
      = nibble (v2 (ix3 c g s)) p := by
  refine (stack4_apply (n := 128) _ _ _ _ _ c g s p).trans ?_
  have e : ∀ y : IVec S128x64x16 32,
      shapeCast S128x64x16x1 y shapeCasts_S128x64x16_S128x64x16x1 (ix4 c g s (0 : Fin 1)) = y (ix3 c g s) := fun y =>
    shapeCast_apply y _ _ _ (by
      rw [Shape.rowMajor_val_three, Shape.rowMajor_val_four]
      show (c.val * 64 + g.val) * 16 + s.val = ((c.val * 64 + g.val) * 16 + s.val) * 1 + 0
      omega)
  match p with
  | ⟨0, _⟩ => exact e _
  | ⟨1, _⟩ => exact e _
  | ⟨2, _⟩ => exact e _
  | ⟨3, _⟩ => exact e _

/-- A per-group value carried on two trailing unit axes and broadcast over the group's words and fields, read at
    `(c, g, s, p)`: the group's value. -/
theorem group_apply (v : FVec Ideal S128x64x1 .f32) (c : Fin 128) (g : Fin 64) (s : Fin 16) (p : Fin 4) :
    broadcastTo S128x64x16x4 (shapeCast S128x64x1x1 v shapeCasts_S128x64x1_S128x64x1x1) broadcasts_S128x64x1x1_S128x64x16x4 (ix4 c g s p)
      = v (ix3 c g (0 : Fin 1)) := by
  refine (broadcastTo_apply _ _ (ix4 c g s p) (ix4 c g (0 : Fin 1) (0 : Fin 1)) (fun a => ?_)).trans ?_
  · match a with
    | ⟨0, _⟩ => show c.val = if (128 : Nat) = 1 then 0 else c.val; rw [if_neg (by decide)]
    | ⟨1, _⟩ => show g.val = if (64 : Nat) = 1 then 0 else g.val; rw [if_neg (by decide)]
    | ⟨2, _⟩ => show 0 = if (1 : Nat) = 1 then 0 else s.val; rw [if_pos rfl]
    | ⟨3, _⟩ => show 0 = if (1 : Nat) = 1 then 0 else p.val; rw [if_pos rfl]
  · exact shapeCast_apply v _ _ _ (by
      rw [Shape.rowMajor_val_three, Shape.rowMajor_val_four]
      show (c.val * 64 + g.val) * 1 + 0 = ((c.val * 64 + g.val) * 1 + 0) * 1 + 0
      omega)

/-- The weight block the body builds from the block's words, scales and offsets. -/
def wblock (v2 : IVec S128x64x16 32) (v22 v23 : FVec Ideal S128x64x1 .f32) : FVec Ideal S128x4096 .f32 :=
  shapeCast S128x4096
    (addf
      (mulf
        (sitofp .f32 (concatenate S128x64x16x4 3
          [⟨S128x64x16x1, shapeCast S128x64x16x1 (andi v2 (broadcast S128x64x16 15#32)) shapeCasts_S128x64x16_S128x64x16x1⟩,
           ⟨S128x64x16x1, shapeCast S128x64x16x1 (andi (shrsi v2 (broadcast S128x64x16 4#32)) (broadcast S128x64x16 15#32)) shapeCasts_S128x64x16_S128x64x16x1⟩,
           ⟨S128x64x16x1, shapeCast S128x64x16x1 (andi (shrsi v2 (broadcast S128x64x16 8#32)) (broadcast S128x64x16 15#32)) shapeCasts_S128x64x16_S128x64x16x1⟩,
           ⟨S128x64x16x1, shapeCast S128x64x16x1 (andi (shrsi v2 (broadcast S128x64x16 12#32)) (broadcast S128x64x16 15#32)) shapeCasts_S128x64x16_S128x64x16x1⟩]
          concatenates_S128x64x16x1_S128x64x16x1_S128x64x16x1_S128x64x16x1_S128x64x16x4_d3))
        (broadcastTo S128x64x16x4 (shapeCast S128x64x1x1 v22 shapeCasts_S128x64x1_S128x64x1x1) broadcasts_S128x64x1x1_S128x64x16x4))
      (broadcastTo S128x64x16x4 (shapeCast S128x64x1x1 v23 shapeCasts_S128x64x1_S128x64x1x1) broadcasts_S128x64x1x1_S128x64x16x4))
    shapeCasts_S128x64x16x4_S128x4096

/-- Entry `(c, k)` of the weight block is `W[c, k]` of the block's packing: the flattening puts `(g, s, p)` at
    `k = 64 g + 4 s + p`. -/
theorem wblock_apply (v2 : IVec S128x64x16 32) (v22 v23 : FVec Ideal S128x64x1 .f32) (c : Fin 128) (k : Fin 4096) :
    wblock v2 v22 v23 (ix2 c k) = weightAt v2 v22 v23 c k := by
  have hk := k.isLt
  unfold wblock
  refine (shapeCast_apply _ _ (ix2 c k)
    (ix4 c (⟨k.val / 64, by omega⟩ : Fin 64) (⟨k.val / 4 % 16, by omega⟩ : Fin 16) (⟨k.val % 4, by omega⟩ : Fin 4)) (by
      rw [Shape.rowMajor_val_four, Shape.rowMajor_val_two]
      show ((c.val * 64 + k.val / 64) * 16 + k.val / 4 % 16) * 4 + k.val % 4 = c.val * 4096 + k.val
      omega)).trans ?_
  rw [addf_apply, mulf_apply, sitofp_apply, fields_apply, group_apply, group_apply]
  rfl

/-! ## The matrix product -/

theorem lhs_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
theorem lhs_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rhs_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
theorem rhs_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-- The product of a `[512, 4096]` block and a `[128, 4096]` block over their last axes, into a zero accumulator:
    entry `(r, c)` is the sum over `k` of `a[r, k] * b[c, k]`. -/
theorem product_apply {φ₁ φ₂ : FTy} (a : FVec Ideal S512x4096 φ₁) (b : FVec Ideal S128x4096 φ₂) (r : Fin 512) (c : Fin 128) :
    matmul dot_S512x4096_S128x4096_S512x128_1_1_0_0_n_n none a b (constant S512x128 .f32 0x00000000#32) (ix2 r c)
      = ∑ k : Fin 4096, a (ix2 r k) * b (ix2 c k) := by
  show FloatOps.matmul dot_S512x4096_S128x4096_S512x128_1_1_0_0_n_n none a b (constant S512x128 .f32 0x00000000#32) (ix2 r c) = _
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 r c) ((contrEquiv1 dot_S512x4096_S128x4096_S512x128_1_1_0_0_n_n 4096 rfl rfl).symm k) = ix2 r k := funext fun a => Fin.ext (by
    match a with
    | ⟨0, _⟩ => exact lhs_0 _ _
    | ⟨1, _⟩ => exact (lhs_1 _ _).trans hk)
  have er : dot_S512x4096_S128x4096_S512x128_1_1_0_0_n_n.rhsIdx (ix2 r c) ((contrEquiv1 dot_S512x4096_S128x4096_S512x128_1_1_0_0_n_n 4096 rfl rfl).symm k) = ix2 c k := funext fun a => Fin.ext (by
    match a with
    | ⟨0, _⟩ => exact rhs_0 _ _
    | ⟨1, _⟩ => exact (rhs_1 _ _).trans hk)
  rw [el, er]

/-! ## The body's stored value -/

/-- The body's product is the product of the `x` block with the weight block, both rounded to the narrower format. -/
theorem pay2_eq (v0 : Vec Ideal S512x4096 .f32) (v2 : Vec Ideal S128x64x16 .i32) (v22 v23 : Vec Ideal S128x64x1 .f32) :
    k0_pay2 v0 v2 v22 v23
      = matmul dot_S512x4096_S128x4096_S512x128_1_1_0_0_n_n none
          (truncf .bf16 (shapeCast S512x4096 v0 shapeCasts_S512x4096_S512x4096) bitsLt_bf16_f32)
          (truncf .bf16 (wblock v2 v22 v23) bitsLt_bf16_f32) (constant S512x128 .f32 0x00000000#32) := rfl

/-- What the body stores, at `(r, c)` of its `[512, 128]` output block: the sum over `k` of `x[r, k] * W[c, k]`, plus
    the bias of output feature `c`. -/
theorem stored_apply (v0 : Vec Ideal S512x4096 .f32) (v2 : Vec Ideal S128x64x16 .i32) (v22 v23 : Vec Ideal S128x64x1 .f32)
    (v35 : Vec Ideal S1x128 .f32) (r : Fin 512) (c : Fin 128) :
    k0_pay1 (k0_pay2 v0 v2 v22 v23) (k0_pay3 v35) (ix2 r c)
      = (∑ k : Fin 4096, v0 (ix2 r k) * weightAt v2 v22 v23 c k) + v35 (ix2 (0 : Fin 1) c) := by
  unfold k0_pay1 k0_pay3
  rw [pay2_eq]
  refine (addf_apply _ _ _).trans ?_
  rw [product_apply]
  refine congr (congrArg _ (Finset.sum_congr rfl fun k _ => ?_)) ?_
  · rw [truncf_apply, truncf_apply, shapeCast_self, wblock_apply]
  · refine (broadcastTo_apply _ _ (ix2 r c) (ix2 (0 : Fin 1) c) (fun a => ?_)).trans ?_
    · match a with
      | ⟨0, _⟩ => show 0 = if (1 : Nat) = 1 then 0 else r.val; rw [if_pos rfl]
      | ⟨1, _⟩ => show c.val = if (128 : Nat) = 1 then 0 else c.val; rw [if_neg (by decide)]
    · rw [shapeCast_self]

end Cert.KernelIdeal.BodyValue

end
-- ==== Proof.KernelValue.lean ====
/-
  The kernel's run, read: its result array holds `result` of the five arguments.

  The program flattens `x` to `[4096, 4096]` rows and the bias to one row `[1, 4096]`, runs the body over an 8 by 32
  grid, and unflattens the `[4096, 4096]` output. Grid point `(a, b)` loads rows `512 a .. 512 a + 511` of the
  flattened `x`, the words, scales and offsets of output features `128 b .. 128 b + 127`, those features' bias
  values, and writes block `(a, b)` of the output. So what a point writes back is the restriction to its block of one
  whole-array function: entry `(i, o)` is the sum over `k` of `xrows[i, k] * W[o, k]`, plus `bias[o]` — the dense
  weight of a row depends on that row's packing only, so a block of rows gives the same weights as the whole array.
  The 256 blocks tile the output, so the output array is that function; the reshapes around the region only rename
  indices (`i = 2048 b + t`).
-/
import proofs.«421316_j11733850653105_1_alg».proof.Proof.Gen.KernelIdeal.Frame
import proofs.«421316_j11733850653105_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.ValueIdx Cert.GroupQuant
open Idealize.ShloMosaic.Pipeline (Dat)

variable (m : (ℓ : Loc nD τ sig) → Buf (Elt Ideal) ℓ) (ρ : Dev nD → PrngReg)

/-! ## The arrays as the region finds them -/

/-- The flattened `x`: 4096 rows of 4096 input features. -/
abbrev xrows (c : Dev nD) : FVec Ideal S4096x4096 .f32 := V m c main_v0
/-- The packed words, the scales and the offsets: the program's arguments. -/
abbrev words (c : Dev nD) : IVec S4096x64x16 32 := V m c main_arg1
abbrev scales (c : Dev nD) : FVec Ideal S4096x64x1 .f32 := V m c main_arg2
abbrev offsets (c : Dev nD) : FVec Ideal S4096x64x1 .f32 := V m c main_arg3
/-- The bias as one row. -/
abbrev biasrow (c : Dev nD) : FVec Ideal S1x4096 .f32 := V m c main_v1

/-- The region's output array: entry `(i, o)` is the sum over `k` of `xrows[i, k] * W[o, k]`, plus `bias[o]`. -/
def regionOut (c : Dev nD) : FVec Ideal S4096x4096 .f32 := fun i =>
  (∑ k : Fin 4096, xrows m c (ix2 (i 0) k) * weightAt (words m c) (scales m c) (offsets m c) (i 1) k)
    + biasrow m c (ix2 (0 : Fin 1) (i 1))

/-! ## The blocks a point loads -/

/-- The blocks point `t` loads, each at its literal shape. -/
abbrev xblk (c : Dev nD) (t : Fin cfg0.N) : Vec Ideal S512x4096 .f32 := iblk m c 0 t
abbrev wordblk (c : Dev nD) (t : Fin cfg0.N) : Vec Ideal S128x64x16 .i32 := iblk m c 1 t
abbrev scaleblk (c : Dev nD) (t : Fin cfg0.N) : Vec Ideal S128x64x1 .f32 := iblk m c 2 t
abbrev offsetblk (c : Dev nD) (t : Fin cfg0.N) : Vec Ideal S128x64x1 .f32 := iblk m c 3 t
abbrev biasblk (c : Dev nD) (t : Fin cfg0.N) : Vec Ideal S1x128 .f32 := iblk m c 4 t

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 256 grid points: point `t` is `(t / 32, t mod 32)`; the `x` block follows the
    first coordinate, the weight and bias blocks the second, and the output block both. -/
theorem idx_facts : ∀ t : Fin cfg0.N,
    win0_5.index t (0 : Fin 2) = t.val / 32 ∧ win0_5.index t (1 : Fin 2) = t.val % 32
    ∧ win0_0.index t (0 : Fin 2) = t.val / 32 ∧ win0_0.index t (1 : Fin 2) = 0
    ∧ win0_1.index t (0 : Fin 3) = t.val % 32 ∧ win0_1.index t (1 : Fin 3) = 0 ∧ win0_1.index t (2 : Fin 3) = 0
    ∧ win0_2.index t (0 : Fin 3) = t.val % 32 ∧ win0_2.index t (1 : Fin 3) = 0 ∧ win0_2.index t (2 : Fin 3) = 0
    ∧ win0_3.index t (0 : Fin 3) = t.val % 32 ∧ win0_3.index t (1 : Fin 3) = 0 ∧ win0_3.index t (2 : Fin 3) = 0
    ∧ win0_4.index t (0 : Fin 2) = 0 ∧ win0_4.index t (1 : Fin 2) = t.val % 32 :=
  (by decide +kernel : ∀ t : Fin grid0.N, _)

/-- The `x` block at point `t`, entry `y`: the flattened `x` at row `512 (t / 32) + y₀`, feature `y₁`. -/
theorem xblock_read (c : Dev nD) (t : Fin cfg0.N) (y : S512x4096.Idx) (i : S4096x4096.Idx)
    (h0 : (i 0).val = t.val / 32 * 512 + (y 0).val) (h1 : (i 1).val = (y 1).val) :
    xblk m c t y = xrows m c i := by
  obtain ⟨-, -, e0, e1, -⟩ := idx_facts t
  unfold xblk iblk
  rw [View.read_apply]
  show V m c main_v0 _ = V m c main_v0 i
  congr 1
  funext a
  apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The block of packed words at point `t`: the words of output features `128 (t mod 32) + y₀`. -/
theorem wordblock_read (c : Dev nD) (t : Fin cfg0.N) (y : S128x64x16.Idx) (i : S4096x64x16.Idx)
    (h0 : (i 0).val = t.val % 32 * 128 + (y 0).val) (h1 : (i 1).val = (y 1).val) (h2 : (i 2).val = (y 2).val) :
    wordblk m c t y = words m c i := by
  obtain ⟨-, -, -, -, e0, e1, e2, -⟩ := idx_facts t
  unfold wordblk iblk
  rw [View.read_apply]
  show V m c main_arg1 _ = V m c main_arg1 i
  congr 1
  funext a
  apply Fin.ext
  match a with
  | ⟨0, _⟩ => show win0_1.index t (0 : Fin 3) * 128 + 1 * (y 0).val = (i 0).val; omega
  | ⟨1, _⟩ => show win0_1.index t (1 : Fin 3) * 64 + 1 * (y 1).val = (i 1).val; omega
  | ⟨2, _⟩ => show win0_1.index t (2 : Fin 3) * 16 + 1 * (y 2).val = (i 2).val; omega

/-- The block of scales at point `t`. -/
theorem scaleblock_read (c : Dev nD) (t : Fin cfg0.N) (y : S128x64x1.Idx) (i : S4096x64x1.Idx)
    (h0 : (i 0).val = t.val % 32 * 128 + (y 0).val) (h1 : (i 1).val = (y 1).val) (h2 : (i 2).val = (y 2).val) :
    scaleblk m c t y = scales m c i := by
  obtain ⟨-, -, -, -, -, -, -, e0, e1, e2, -⟩ := idx_facts t
  unfold scaleblk iblk
  rw [View.read_apply]
  show V m c main_arg2 _ = V m c main_arg2 i
  congr 1
  funext a
  apply Fin.ext
  match a with
  | ⟨0, _⟩ => show win0_2.index t (0 : Fin 3) * 128 + 1 * (y 0).val = (i 0).val; omega
  | ⟨1, _⟩ => show win0_2.index t (1 : Fin 3) * 64 + 1 * (y 1).val = (i 1).val; omega
  | ⟨2, _⟩ => show win0_2.index t (2 : Fin 3) * 1 + 1 * (y 2).val = (i 2).val; omega

/-- The block of offsets at point `t`. -/
theorem offsetblock_read (c : Dev nD) (t : Fin cfg0.N) (y : S128x64x1.Idx) (i : S4096x64x1.Idx)
    (h0 : (i 0).val = t.val % 32 * 128 + (y 0).val) (h1 : (i 1).val = (y 1).val) (h2 : (i 2).val = (y 2).val) :
    offsetblk m c t y = offsets m c i := by
  obtain ⟨-, -, -, -, -, -, -, -, -, -, e0, e1, e2, -⟩ := idx_facts t
  unfold offsetblk iblk
  rw [View.read_apply]
  show V m c main_arg3 _ = V m c main_arg3 i
  congr 1
  funext a
  apply Fin.ext
  match a with
  | ⟨0, _⟩ => show win0_3.index t (0 : Fin 3) * 128 + 1 * (y 0).val = (i 0).val; omega
  | ⟨1, _⟩ => show win0_3.index t (1 : Fin 3) * 64 + 1 * (y 1).val = (i 1).val; omega
  | ⟨2, _⟩ => show win0_3.index t (2 : Fin 3) * 1 + 1 * (y 2).val = (i 2).val; omega

/-- The bias block at point `t`: the bias row at features `128 (t mod 32) + y₁`. -/
theorem biasblock_read (c : Dev nD) (t : Fin cfg0.N) (y : S1x128.Idx) (i : S1x4096.Idx)
    (h0 : (i 0).val = (y 0).val) (h1 : (i 1).val = t.val % 32 * 128 + (y 1).val) :
    biasblk m c t y = biasrow m c i := by
  obtain ⟨-, -, -, -, -, -, -, -, -, -, -, -, -, e0, e1⟩ := idx_facts t
  unfold biasblk iblk
  rw [View.read_apply]
  show V m c main_v1 _ = V m c main_v1 i
  congr 1
  funext a
  apply Fin.ext
  match a with
  | ⟨0, _⟩ => show win0_4.index t (0 : Fin 2) * 1 + 1 * (y 0).val = (i 0).val; omega
  | ⟨1, _⟩ => show win0_4.index t (1 : Fin 2) * 128 + 1 * (y 1).val = (i 1).val; omega

/-! ## What a point writes back -/

/-- The body's stored entry `(r, cc)` at point `t` is the region's output at `(512 (t / 32) + r, 128 (t mod 32) + cc)`. -/
theorem point_eq (c : Dev nD) (t : Fin cfg0.N) (r : Fin 512) (cc : Fin 128) (i : S4096x4096.Idx)
    (hi0 : (i 0).val = t.val / 32 * 512 + r.val) (hi1 : (i 1).val = t.val % 32 * 128 + cc.val) :
    (∑ k : Fin 4096, xblk m c t (ix2 r k) * weightAt (wordblk m c t) (scaleblk m c t) (offsetblk m c t) cc k)
      + biasblk m c t (ix2 (0 : Fin 1) cc) = regionOut m c i := by
  unfold regionOut
  refine congr (congrArg _ (Finset.sum_congr rfl fun k _ => ?_)) ?_
  · refine congr (congrArg _ (xblock_read m c t (ix2 r k) (ix2 (i 0) k) hi0 rfl)) ?_
    exact weightAt_congr _ _ _ _ _ _ cc (i 1)
      (fun g s => wordblock_read m c t (ix3 cc g s) (ix3 (i 1) g s) hi1 rfl rfl)
      (fun g => scaleblock_read m c t (ix3 cc g (0 : Fin 1)) (ix3 (i 1) g (0 : Fin 1)) hi1 rfl rfl)
      (fun g => offsetblock_read m c t (ix3 cc g (0 : Fin 1)) (ix3 (i 1) g (0 : Fin 1)) hi1 rfl rfl) k
  · exact biasblock_read m c t (ix2 (0 : Fin 1) cc) (ix2 (0 : Fin 1) (i 1)) rfl hi1

/-- What point `t` writes back is block `t` of the region's output function. -/
theorem flushed_eq (c : Dev nD) (t : Fin cfg0.N) :
    (dats m 0 c).flushed 5 t = ((cfg0.win 5).blk t).view.read (Elt Ideal) (regionOut m c) := by
  obtain ⟨e0, e1, -⟩ := idx_facts t
  show (cfg0.win 5).cut (grid0.coords t) ((dats m 0 c).after 5 t) = _
  rw [after0_5]
  unfold out0_5
  rw [View.canon_unit_zero hz2]
  simp only [View.ld_unit_zero (S := S512x4096) hz2, View.ld_unit_zero (S := S128x64x16) hz3,
    View.ld_unit_zero (S := S128x64x1) hz3, View.ld_unit_zero (S := S1x128) hz2]
  funext j
  obtain ⟨r, cc, rfl⟩ : ∃ (r : Fin 512) (cc : Fin 128), j = ix2 r cc := ⟨j 0, j 1, eq_ix2 j⟩
  refine (BodyValue.stored_apply (xblk m c t) (wordblk m c t) (scaleblk m c t) (offsetblk m c t) (biasblk m c t) r cc).trans ?_
  refine point_eq m c t r cc (((cfg0.win 5).blk t).view.emb (ix2 r cc)) ?_ ?_
  · show win0_5.index t (0 : Fin 2) * 512 + 1 * r.val = t.val / 32 * 512 + r.val; omega
  · show win0_5.index t (1 : Fin 2) * 128 + 1 * cc.val = t.val % 32 * 128 + cc.val; omega

/-! ## The output array after the run -/

/-- An index of the output array is in point `t`'s block iff each coordinate is in the block's range. -/
theorem mem_blk (t : Fin cfg0.N) (i : S4096x4096.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v2).slice (win0_5.rect t)).set ↔ _
  rw [View.set_slice_whole, Rect.mem_set_unit]
  exact Iff.rfl

/-- The 256 blocks tile the output, so after the run the output array is the region's output function. -/
theorem final (c : Dev nD) : (dats m 0 c).arrAt 5 cfg0.N = regionOut m c :=
  (dats m 0 c).arrAt_eq_of_cover 5 (regionOut m c) (fun t _ => flushed_eq m c t) fun i => by
    have h0 : (i 0).val < 4096 := (i 0).isLt
    have h1 : (i 1).val < 4096 := (i 1).isLt
    have hN : (i 0).val / 512 * 32 + (i 1).val / 128 < cfg0.N := by show _ < grid0.N; rw [N_0]; omega
    obtain ⟨e0, e1, -⟩ := idx_facts ⟨(i 0).val / 512 * 32 + (i 1).val / 128, hN⟩
    refine ⟨⟨(i 0).val / 512 * 32 + (i 1).val / 128, hN⟩, flush0_5 _, ?_⟩
    rw [mem_blk]
    intro a
    match a with
    | ⟨0, _⟩ =>
      show win0_5.index _ (0 : Fin 2) * 512 ≤ (i 0).val ∧ (i 0).val < win0_5.index _ (0 : Fin 2) * 512 + 512
      rw [e0]; dsimp only; omega
    | ⟨1, _⟩ =>
      show win0_5.index _ (1 : Fin 2) * 128 ≤ (i 1).val ∧ (i 1).val < win0_5.index _ (1 : Fin 2) * 128 + 128
      rw [e1]; dsimp only; omega

/-! ## The reshapes around the region -/

/-- The flattened `x` is the argument reshaped. -/
theorem xrows_eq (c : Dev nD) :
    xrows m c = shapeCast S4096x4096 (m ((c : Thread nD τ).loc main_arg0) : FVec Ideal S2x2048x4096 .f32) shapeCasts_S2x2048x4096_S4096x4096 := by
  show StableHlo.after hostOps0 (fun b => m (c, b)) (Proc.devRef .tc main_v0) = _
  after_results
  rfl

/-- The bias row is the argument reshaped. -/
theorem biasrow_eq (c : Dev nD) :
    biasrow m c = shapeCast S1x4096 (m ((c : Thread nD τ).loc main_arg4) : FVec Ideal S4096 .f32) shapeCasts_S4096_S1x4096 := by
  show StableHlo.after hostOps0 (fun b => m (c, b)) (Proc.devRef .tc main_v1) = _
  after_results
  rfl

/-- The program's result is the region's output array reshaped. -/
theorem tail_eq (c : Dev nD) :
    Pipeline.afterTail₀ cfgs (dats m) 0 (V0 m) [hostOps1] c main_v3
      = shapeCast S2x2048x4096 (regionOut m c) shapeCasts_S4096x4096_S2x2048x4096 := by
  unfold Pipeline.afterTail₀
  show StableHlo.after hostOps1 _ (Proc.devRef .tc main_v3) = _
  after_results
  exact congrArg (fun a : FVec Ideal S4096x4096 .f32 => shapeCast S2x2048x4096 a shapeCasts_S4096x4096_S2x2048x4096)
    ((Pipeline.withArrays_arr spec0 launch0.win.arr_inj c _ _ 5).trans (final m c))

/-- The reshaped output is `result` of the five arguments: row `2048 b + t` of the flattened `x` is `x[b, t, ·]`. -/
theorem out_eq (c : Dev nD) :
    shapeCast S2x2048x4096 (regionOut m c) shapeCasts_S4096x4096_S2x2048x4096
      = result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, t, o, rfl⟩ : ∃ (b : Fin 2) (t : Fin 2048) (o : Fin 4096), i = ix3 b t o := ⟨i 0, i 1, i 2, eq_ix3 i⟩
  have hb := b.isLt
  have ht := t.isLt
  have ho := o.isLt
  refine (shapeCast_apply _ _ (ix3 b t o) (ix2 (⟨b.val * 2048 + t.val, by omega⟩ : Fin 4096) o) (by
    rw [Shape.rowMajor_val_two, Shape.rowMajor_val_three]
    show (b.val * 2048 + t.val) * 4096 + o.val = (b.val * 2048 + t.val) * 4096 + o.val
    rfl)).trans ?_
  unfold regionOut result
  refine congr (congrArg _ (Finset.sum_congr rfl fun k _ => ?_)) ?_
  · have hk := k.isLt
    refine congr (congrArg _ ?_) ?_
    · rw [xrows_eq]
      exact shapeCast_apply _ _ _ (ix3 b t k) (by
        rw [Shape.rowMajor_val_three, Shape.rowMajor_val_two]
        show (b.val * 2048 + t.val) * 4096 + k.val = (b.val * 2048 + t.val) * 4096 + k.val
        rfl)
    · show weightAt (V m c main_arg1) (V m c main_arg2) (V m c main_arg3) o k = _
      rw [V_main_arg1, V_main_arg2, V_main_arg3]
  · rw [biasrow_eq]
    exact shapeCast_apply _ _ _ (ix1 o) (by
      rw [Shape.rowMajor_val_one, Shape.rowMajor_val_two]
      show o.val = 0 * 4096 + o.val
      omega)

/-! ## The run -/

/-- Every weakly fair execution of the kernel program terminates with its result array at `result` of the
    arguments, the arguments unchanged. -/
theorem run : θ_run defs (onTc (τ := τ) (main (F := Ideal))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans ((tail_eq m c).trans (out_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.RunValue

end
-- ==== Proof.lean ====
/-
  A group-quantized linear layer, `y = x Wᵀ + bias`, whose weight is stored as 4-bit fields packed four to a word
  with one scale and one offset per group of 64 input features: the kernel dequantizes a block of 128 output
  features on the fly and multiplies it with a block of 512 rows of `x`, on an 8 by 32 grid; the reference
  dequantizes the whole weight and contracts it with `x` in one product.

  Over the extended reals both compute, for every batch `b`, position `t` and output feature `o`,
  `y[b, t, o] = (sum over k of x[b, t, k] * (float(field of word) * scale + offset)) + bias[o]`
  (Proof/Dequant.lean `result`): the same expression entry by entry, so the two results are equal without any
  algebraic law beyond the reading of each layout operation at an index — in particular the inputs' finiteness is
  not used. The reference is `result` by Proof/RefValue.lean; the kernel's body stores the entries of `result` that
  its blocks determine (Proof/KernelBody.lean), its 256 blocks tile the output, and the reshapes around the region
  rename indices (Proof/KernelValue.lean). The three programs run and keep their arguments; the idealization
  rewrote nothing, so there is nothing to preserve.
-/
import proofs.«421316_j11733850653105_1_alg».proof.Defs
import proofs.«421316_j11733850653105_1_alg».proof.Proof.Gen.Kernel
import proofs.«421316_j11733850653105_1_alg».proof.Proof.Gen.Kernel.Skeleton
import proofs.«421316_j11733850653105_1_alg».proof.Proof.Gen.Kernel.Launch
import proofs.«421316_j11733850653105_1_alg».proof.Proof.Gen.Kernel.Points
import proofs.«421316_j11733850653105_1_alg».proof.Proof.Gen.Kernel.Frame
import proofs.«421316_j11733850653105_1_alg».proof.Proof.Gen.KernelIdeal
import proofs.«421316_j11733850653105_1_alg».proof.Proof.Gen.KernelIdeal.Skeleton
import proofs.«421316_j11733850653105_1_alg».proof.Proof.Gen.KernelIdeal.Launch
import proofs.«421316_j11733850653105_1_alg».proof.Proof.Gen.KernelIdeal.Points
import proofs.«421316_j11733850653105_1_alg».proof.Proof.Gen.KernelIdeal.Frame
import proofs.«421316_j11733850653105_1_alg».proof.Proof.Gen.ReferenceIdeal
import proofs.«421316_j11733850653105_1_alg».proof.Proof.Gen.Pre_finite_inputs
import proofs.«421316_j11733850653105_1_alg».proof.Proof.Gen.ReferenceIdeal.Run
import proofs.«421316_j11733850653105_1_alg».proof.Proof.Gen.ReferenceIdeal.Read
import proofs.«421316_j11733850653105_1_alg».proof.Proof.Dequant
import proofs.«421316_j11733850653105_1_alg».proof.Proof.RefValue
import proofs.«421316_j11733850653105_1_alg».proof.Proof.KernelBody
import proofs.«421316_j11733850653105_1_alg».proof.Proof.KernelValue
import Idealize.ShloMosaic.Adequacy
import Idealize.ShloMosaic.Init

noncomputable section

namespace Cert.Proof

open Idealize.ShloMosaic Idealize.SL.Sem Cert.GroupQuant

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `result` of the arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ?_) (Cert.ReferenceIdeal.Value.run (F := Ideal) m' ρ')
  refine ⟨((h c).1.trans (Cert.ReferenceIdeal.Read.val_main_v32_eq _ _ _ _ _)).trans ?_, (h c).2⟩
  rw [Cert.ReferenceIdeal.RefValue.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
